-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x128x512 : Shape := ⟨3, ![512, 128, 512]⟩
abbrev S_ : Shape := ⟨0, ![]⟩

class Facts : Prop where
  bcast_S_S512x128x512 : S_.BroadcastsInDim S512x128x512 (![] : Fin 0 → Fin S512x128x512.rank)
  reducesTo_S512x128x512_S_d0_1_2 : S512x128x512.ReducesTo [0, 1, 2] S_
  h_S_ : 0 < S_.numel

variable [Facts]

def fn {F : FTy → Type} [FloatOps F] (main_arg0 : FVec F S512x128x512 .f32) : IVec S_ 1 :=
  let main_v0 : FVec F S512x128x512 .f32 := Host.absf main_arg0
  let main_cst : FVec F S_ .f32 := constant S_ .f32 0x7F800000#32
  let main_v1 : FVec F S512x128x512 .f32 := broadcastInDim S512x128x512 ![] bcast_S_S512x128x512 main_cst
  let main_v2 : IVec S512x128x512 1 := cmpf .olt main_v0 main_v1
  let main_c : IVec S_ 1 := constantI S_ 1 1#1
  let main_v3 : IVec S_ 1 := (fun x v => Host.reduce IntOp.andi x v reducesTo_S512x128x512_S_d0_1_2 h_S_) main_v2 main_c
  main_v3
-- ==== Kernel.lean ====
abbrev S512x128x512 : Shape := ⟨3, ![512, 128, 512]⟩
abbrev S512x128x128 : Shape := ⟨3, ![512, 128, 128]⟩
abbrev S32x128x512 : Shape := ⟨3, ![32, 128, 512]⟩
abbrev S32x128x128 : Shape := ⟨3, ![32, 128, 128]⟩

abbrev nBuf : Space → Nat
  | .hbm => 2
  | .vmem => 4
  | .smem => 0
  | _ => 0

abbrev bufTy : (tb : Table) → Fin (tcTables nBuf tb) → BufTy
  | .hbm, ⟨0, _⟩ => ⟨S512x128x512, .f32⟩
  | .hbm, ⟨1, _⟩ => ⟨S512x128x128, .f32⟩
  | .local _ .vmem, ⟨0, _⟩ => ⟨S32x128x512, .f32⟩
  | .local _ .vmem, ⟨1, _⟩ => ⟨S32x128x512, .f32⟩
  | .local _ .vmem, ⟨2, _⟩ => ⟨S32x128x128, .f32⟩
  | .local _ .vmem, ⟨3, _⟩ => ⟨S32x128x128, .f32⟩
  | _, _ => ⟨S512x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S32x128x512_S32x128x512_0_0_0 : ∀ a, (![0, 0, 0] : Fin 3 → Nat) a + S32x128x512.size a ≤ S32x128x512.size a
  h_S32x128x512 : 0 < S32x128x512.numel
  bitsLt_bf16_f32 : FTy.bits .bf16 < FTy.bits .f32
  inb_S32x128x128_S32x128x128_0_0_0 : ∀ a, (![0, 0, 0] : Fin 3 → Nat) a + S32x128x128.size a ≤ S32x128x128.size a
  h_S32x128x128 : 0 < S32x128x128.numel
  dot_S32x128x512_S32x128x512_S32x128x128_2_2_1_1_0_0_wf : DotDims.WF S32x128x512 S32x128x512 S32x128x128 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128x512.size a ≤ S512x128x512.size a
  hwx0_0 : ∀ i : grid0.Coords, EltTy.bits .f32 = 32 ∨ (Rect.block (s := S512x128x512) S32x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x128x128.size a ≤ S512x128x128.size a
  hwx0_1 : ∀ i : grid0.Coords, EltTy.bits .f32 = 32 ∨ (Rect.block (s := S512x128x128) S32x128x128.size (cc0_transform_1 i) (hinb0_1 i)).WholeWords (EltTy.packing .f32)

variable [Facts₀]

def dot_S32x128x512_S32x128x512_S32x128x128_2_2_1_1_0_0 : DotDims S32x128x512 S32x128x512 S32x128x128 where
  lhsContracting := [2]
  rhsContracting := [2]
  lhsNonContracting := [1]
  rhsNonContracting := [1]
  lhsBatch := [0]
  rhsBatch := [0]
  wf := dot_S32x128x512_S32x128x512_S32x128x128_2_2_1_1_0_0_wf

abbrev win0_0 : Pipeline.Window sig grid0 :=
  Pipeline.Window.ofSpec (Memref.whole main_arg0) S32x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S32x128x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S512x128x512 : Shape := ⟨3, ![512, 128, 512]⟩
abbrev S512x128x128 : Shape := ⟨3, ![512, 128, 128]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S512x128x512, .f32⟩
  | .hbm, ⟨1, _⟩ => ⟨S512x128x128, .f32⟩
  | .hbm, ⟨2, _⟩ => ⟨S_, .f32⟩
  | .hbm, ⟨3, _⟩ => ⟨S512x128x128, .f32⟩
  | .hbm, ⟨4, _⟩ => ⟨S512x128x128, .f32⟩
  | .hbm, ⟨5, _⟩ => ⟨S512x128x128, .f32⟩
  | _, _ => ⟨S512x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]

class Facts₀ : Prop where
  bcast_S_S512x128x128 : S_.BroadcastsInDim S512x128x128 (![] : Fin 0 → Fin S512x128x128.rank)
  dot_S512x128x512_S512x128x512_S512x128x128_2_2_1_1_0_0_wf : DotDims.WF S512x128x512 S512x128x512 S512x128x128 [2] [2] [1] [1] [0] [0]

variable [Facts₀]

def dot_S512x128x512_S512x128x512_S512x128x128_2_2_1_1_0_0 : DotDims S512x128x512 S512x128x512 S512x128x128 where
  lhsContracting := [2]
  rhsContracting := [2]
  lhsNonContracting := [1]
  rhsNonContracting := [1]
  lhsBatch := [0]
  rhsBatch := [0]
  wf := dot_S512x128x512_S512x128x512_S512x128x128_2_2_1_1_0_0_wf

class Facts : Prop extends Facts₀ where

variable [Facts]
-- ==== Proof.GramSpec.lean ====
/-
  The mathematics both programs compute. The input is 512 samples, each a 128 × 512 matrix over the extended
  reals. For a sample `n` and two of its rows `c`, `k` the Gram entry is the inner product of the rows,
  a sum of 512 products. The polynomial kernel of degree two shifts that entry by the constant one and
  squares it: `(⟨row c, row k⟩ + 1)²`. Sums and products of extended reals are commutative and
  associative, so neither the blocking of the samples nor the order of the 512 products matters, and
  nothing here asks the entries to be finite.
-/
import Idealize.ShloMosaic.PureOps.Ideal
import Idealize.ShloMosaic.Lib.ValueIdx

noncomputable section

namespace Cert.PolyGram

open Idealize.ShloMosaic Idealize.ShloMosaic.ValueIdx

/-- The samples: index `(n, c, q)` is entry `q` of row `c` of sample `n`. -/
abbrev Samples : Type := FVec Ideal (⟨3, ![512, 128, 512]⟩ : Shape) .f32

/-- The result: index `(n, c, k)` is the kernel value of rows `c` and `k` of sample `n`. -/
abbrev Kernels : Type := FVec Ideal (⟨3, ![512, 128, 128]⟩ : Shape) .f32

/-- The additive shift, the float whose word is `0x3F800000` (the number one). Both programs spell the
    same word, so its value is never opened. -/
abbrev shift : EReal := Ideal.ofBits .f32 0x3F800000#32

/-- The inner product of rows `c` and `k` of sample `n`. -/
def gram (x : Samples) (n : Fin 512) (c k : Fin 128) : EReal :=
  ∑ q : Fin 512, x (ix3 n c q) * x (ix3 n k q)

/-- The degree-two polynomial kernel of a shifted Gram entry. -/
def shiftSq (g : EReal) : EReal := (g + shift) * (g + shift)

/-- The whole result array: at `(n, c, k)` the shifted, squared inner product of rows `c`, `k` of sample `n`. -/
def polyGram (x : Samples) : Kernels := fun i => shiftSq (gram x (i 0) (i 1) (i 2))

theorem polyGram_apply (x : Samples) (n : Fin 512) (c k : Fin 128) :
    polyGram x (ix3 n c k) = shiftSq (gram x n c k) := rfl

end Cert.PolyGram

end
-- ==== Proof.RefValue.lean ====
/-
  The reference's result is the specification. Read one operation at a time, the reference's last stage at
  an index `(n, c, k)` is a product of two equal sums: the contraction over the last axis of the input at
  `(n, c, q)` times the input at `(n, k, q)`, plus the scalar constant one broadcast over the array. The
  two index functions of the contraction are the rows `c` and `k` of sample `n`, which is the Gram entry
  of the specification, and the rest is the shift and the square, term for term.
-/
import proofs.«127970_j81140522156463_1_alg».proof.Proof.Gen.ReferenceIdeal.Read
import proofs.«127970_j81140522156463_1_alg».proof.Proof.GramSpec

noncomputable section

namespace Cert.ReferenceIdeal.RefValue

open Cert.ReferenceIdeal Cert.ReferenceIdeal.Read Idealize.ShloMosaic Idealize.ShloMosaic.ValueIdx Cert.PolyGram

/-- The contraction's left operand index at output `(n, c, k)` and position `q` is `(n, c, q)`. -/
theorem left_row (i : S512x128x128.Idx) (q : Fin 512) : lidx_main_v0 i q = ix3 (i 0) (i 1) q :=
  funext fun a => Fin.ext (by match a with | ⟨0, _⟩ => rfl | ⟨1, _⟩ => rfl | ⟨2, _⟩ => rfl)

/-- The contraction's right operand index at output `(n, c, k)` and position `q` is `(n, k, q)`. -/
theorem right_row (i : S512x128x128.Idx) (q : Fin 512) : ridx_main_v0 i q = ix3 (i 0) (i 2) q :=
  funext fun a => Fin.ext (by match a with | ⟨0, _⟩ => rfl | ⟨1, _⟩ => rfl | ⟨2, _⟩ => rfl)

/-- The reference's last stage is the shifted, squared Gram entry at every index. -/
theorem stage_eq_polyGram (x : Samples) : val_main_v3 (F := Ideal) x = polyGram x := by
  funext i
  rw [val_main_v3_apply, val_main_v2_apply, val_main_v0_apply, val_main_v1_apply, val_main_cst_apply]
  simp only [left_row, right_row, Ideal.mulf_def, Ideal.addf_def, Ideal.ofBits_def]
  rfl

end Cert.ReferenceIdeal.RefValue

end
-- ==== Proof.BodyValue.lean ====
/-
  The kernel body's one store, read at an index. The body loads a block of 32 samples, narrows it to
  bf16 (the identity on extended reals), multiplies the block with itself by a batched matrix product
  into a zero accumulator (batch axis the sample, contraction over the last axis, the free axes the two
  rows), adds the broadcast scalar one and multiplies the sum with itself. At the block index
  `(b, c, k)` the matrix product is the sum over `q` of the block at `(b, c, q)` times the block at
  `(b, k, q)`: the zero accumulator drops out, and the contraction index has one axis of extent 512, so
  the sum re-indexes to `Fin 512`.
-/
import proofs.«127970_j81140522156463_1_alg».proof.Proof.Gen.KernelIdeal.Skeleton
import proofs.«127970_j81140522156463_1_alg».proof.Proof.GramSpec
import Idealize.ShloMosaic.Lib.ValueIdx
import Idealize.ShloMosaic.PureOps.Ideal.Laws

noncomputable section

namespace Cert.KernelIdeal.BodyValue

open Cert.KernelIdeal Cert.KernelIdeal.Gen Idealize.ShloMosaic Idealize.ShloMosaic.ValueIdx Cert.PolyGram

/-! ## The operand indices of the batched product, axis by axis -/

theorem left_sample (j : S32x128x128.Idx) (q : dot_S32x128x512_S32x128x512_S32x128x128_2_2_1_1_0_0.contr.Idx) :
    (dot_S32x128x512_S32x128x512_S32x128x128_2_2_1_1_0_0.lhsIdx j q 0).val = (j 0).val := by
  unfold DotDims.lhsIdx
  rw [dif_pos (show (0 : Fin S32x128x512.rank) ∈ dot_S32x128x512_S32x128x512_S32x128x128_2_2_1_1_0_0.lhsBatch by decide)]
  rfl

theorem left_row (j : S32x128x128.Idx) (q : dot_S32x128x512_S32x128x512_S32x128x128_2_2_1_1_0_0.contr.Idx) :
    (dot_S32x128x512_S32x128x512_S32x128x128_2_2_1_1_0_0.lhsIdx j q 1).val = (j 1).val := by
  unfold DotDims.lhsIdx
  rw [dif_neg (show ¬(1 : Fin S32x128x512.rank) ∈ dot_S32x128x512_S32x128x512_S32x128x128_2_2_1_1_0_0.lhsBatch by decide), dif_pos (show (1 : Fin S32x128x512.rank) ∈ dot_S32x128x512_S32x128x512_S32x128x128_2_2_1_1_0_0.lhsNonContracting by decide)]
  rfl

theorem left_pos (j : S32x128x128.Idx) (q : dot_S32x128x512_S32x128x512_S32x128x128_2_2_1_1_0_0.contr.Idx) :
    (dot_S32x128x512_S32x128x512_S32x128x128_2_2_1_1_0_0.lhsIdx j q 2).val = (q ⟨0, by decide⟩).val :=
  dot_S32x128x512_S32x128x512_S32x128x128_2_2_1_1_0_0.lhsIdx_val_of_single rfl j q

theorem right_sample (j : S32x128x128.Idx) (q : dot_S32x128x512_S32x128x512_S32x128x128_2_2_1_1_0_0.contr.Idx) :
    (dot_S32x128x512_S32x128x512_S32x128x128_2_2_1_1_0_0.rhsIdx j q 0).val = (j 0).val := by
  unfold DotDims.rhsIdx
  rw [dif_pos (show (0 : Fin S32x128x512.rank) ∈ dot_S32x128x512_S32x128x512_S32x128x128_2_2_1_1_0_0.rhsBatch by decide)]
  rfl

theorem right_row (j : S32x128x128.Idx) (q : dot_S32x128x512_S32x128x512_S32x128x128_2_2_1_1_0_0.contr.Idx) :
    (dot_S32x128x512_S32x128x512_S32x128x128_2_2_1_1_0_0.rhsIdx j q 1).val = (j 2).val := by
  unfold DotDims.rhsIdx
  rw [dif_neg (show ¬(1 : Fin S32x128x512.rank) ∈ dot_S32x128x512_S32x128x512_S32x128x128_2_2_1_1_0_0.rhsBatch by decide), dif_pos (show (1 : Fin S32x128x512.rank) ∈ dot_S32x128x512_S32x128x512_S32x128x128_2_2_1_1_0_0.rhsNonContracting by decide)]
  rfl

theorem right_pos (j : S32x128x128.Idx) (q : dot_S32x128x512_S32x128x512_S32x128x128_2_2_1_1_0_0.contr.Idx) :
    (dot_S32x128x512_S32x128x512_S32x128x128_2_2_1_1_0_0.rhsIdx j q 2).val = (q ⟨0, by decide⟩).val :=
  dot_S32x128x512_S32x128x512_S32x128x128_2_2_1_1_0_0.rhsIdx_val_of_single rfl j q

/-! ## The batched product of a block with itself, at an index -/

/-- Entry `(b, c, k)` of the block's product with itself into the zero accumulator: the inner product of
    rows `c` and `k` of the block's sample `b`. -/
theorem selfProduct_apply (x : FVec Ideal S32x128x512 .bf16) (j : S32x128x128.Idx) :
    matmul dot_S32x128x512_S32x128x512_S32x128x128_2_2_1_1_0_0 none x x (constant S32x128x128 .f32 0x00000000#32) j
      = ∑ q : Fin 512, x (ix3 (j 0) (j 1) q) * x (ix3 (j 0) (j 2) q) := by
  show FloatOps.matmul dot_S32x128x512_S32x128x512_S32x128x128_2_2_1_1_0_0 none x x (constant S32x128x128 .f32 0x00000000#32) j = _
  rw [Ideal.matmul_constant_zero_apply, ← Equiv.sum_comp (contrEquiv1 dot_S32x128x512_S32x128x512_S32x128x128_2_2_1_1_0_0 512 rfl rfl).symm]
  refine Finset.sum_congr rfl fun q _ => ?_
  have hq := contrEquiv1_symm_val dot_S32x128x512_S32x128x512_S32x128x128_2_2_1_1_0_0 512 rfl rfl q
  have el : dot_S32x128x512_S32x128x512_S32x128x128_2_2_1_1_0_0.lhsIdx j ((contrEquiv1 dot_S32x128x512_S32x128x512_S32x128x128_2_2_1_1_0_0 512 rfl rfl).symm q) = ix3 (j 0) (j 1) q := funext fun a => Fin.ext (by
    match a with
    | ⟨0, _⟩ => exact left_sample _ _
    | ⟨1, _⟩ => exact left_row _ _
    | ⟨2, _⟩ => exact (left_pos _ _).trans hq)
  have er : dot_S32x128x512_S32x128x512_S32x128x128_2_2_1_1_0_0.rhsIdx j ((contrEquiv1 dot_S32x128x512_S32x128x512_S32x128x128_2_2_1_1_0_0 512 rfl rfl).symm q) = ix3 (j 0) (j 2) q := funext fun a => Fin.ext (by
    match a with
    | ⟨0, _⟩ => exact right_sample _ _
    | ⟨1, _⟩ => exact right_row _ _
    | ⟨2, _⟩ => exact (right_pos _ _).trans hq)
  exact congrArg₂ (fun a b => a * b) (congrArg x el) (congrArg x er)

/-! ## The stored value at an index -/

/-- What the body stores at block index `j = (b, c, k)`, as a function of the loaded block: the shifted,
    squared inner product of rows `c` and `k` of the block's sample `b`. -/
theorem stored_apply (x : Vec Ideal S32x128x512 .f32) (j : S32x128x128.Idx) :
    k0_pay1 (F := Ideal) x j = shiftSq (∑ q : Fin 512, x (ix3 (j 0) (j 1) q) * x (ix3 (j 0) (j 2) q)) := by
  unfold k0_pay1
  show (matmul dot_S32x128x512_S32x128x512_S32x128x128_2_2_1_1_0_0 none (truncf .bf16 x bitsLt_bf16_f32) (truncf .bf16 x bitsLt_bf16_f32) (constant S32x128x128 .f32 0x00000000#32) j + Ideal.ofBits .f32 0x3F800000#32)
      * (matmul dot_S32x128x512_S32x128x512_S32x128x128_2_2_1_1_0_0 none (truncf .bf16 x bitsLt_bf16_f32) (truncf .bf16 x bitsLt_bf16_f32) (constant S32x128x128 .f32 0x00000000#32) j + Ideal.ofBits .f32 0x3F800000#32) = _
  rw [selfProduct_apply]
  rfl

end Cert.KernelIdeal.BodyValue

end
-- ==== Proof.ArrayValue.lean ====
/-
  From the blocks to the whole array. The grid has sixteen points; at point `t` the input window holds
  samples `32 t … 32 t + 31` whole (all 128 rows, all 512 entries) and the output window the same
  samples' 128 × 128 results. So what point `t` writes back at block index `(b, c, k)` is the
  shifted, squared inner product of rows `c`, `k` of sample `32 t + b`: block `t` of the
  specification's array. The sixteen blocks tile the 512 samples (sample `n` lies in block `n / 32`),
  so after the run the result array is the specification's, everywhere.
-/
import proofs.«127970_j81140522156463_1_alg».proof.Proof.Gen.KernelIdeal.Value
import proofs.«127970_j81140522156463_1_alg».proof.Proof.BodyValue

noncomputable section

namespace Cert.KernelIdeal.ArrayValue

open Cert.KernelIdeal Cert.KernelIdeal.Gen Idealize.ShloMosaic Idealize.ShloMosaic.TcCoe Idealize.SL.Sem
open Idealize.ShloMosaic.ValueIdx Cert.PolyGram
open Idealize.ShloMosaic.Pipeline (Dat)

variable (m : (ℓ : Loc nD τ sig) → Buf (Elt Ideal) ℓ) (ρ : Dev nD → PrngReg)

/-- The input array as the region finds it, at its literal type (so that products of its entries are
    products of extended reals). -/
abbrev input (c : Dev nD) : Samples := V m c main_arg0

/-- The body's rectangles start at the origin of their buffers. -/
theorem origin : (![0, 0, 0] : Fin 3 → Nat) = fun _ => 0 := funext fun a => by fin_cases a <;> rfl

/-- At every grid point both windows sit at the same block of samples and at block zero of the two other axes. -/
theorem block_index : ∀ t : Fin cfg0.N,
    win0_0.index t (0 : Fin 3) = win0_1.index t (0 : Fin 3)
    ∧ win0_0.index t (1 : Fin 3) = 0 ∧ win0_0.index t (2 : Fin 3) = 0
    ∧ win0_1.index t (1 : Fin 3) = 0 ∧ win0_1.index t (2 : Fin 3) = 0 :=
  (by decide +kernel : ∀ t : Fin grid0.N, _)

/-- Each of the sixteen blocks of samples is some grid point's. -/
theorem every_block_visited : ∀ b : Fin 16, ∃ t : Fin cfg0.N, win0_1.index t = ![b.val, 0, 0] :=
  (by decide +kernel : ∀ b : Fin 16, ∃ t : Fin grid0.N, win0_1.index t = ![b.val, 0, 0])

/-- Point `t` writes back block `t` of the specification's array of the input as the region finds it. -/
theorem written_back (c : Dev nD) (t : Fin cfg0.N) :
    (dats m 0 c).flushed 1 t = ((cfg0.win 1).blk t).view.read (Elt Ideal) (polyGram (V m c main_arg0)) := by
  rw [Value.flushed1]
  unfold out0_1
  rw [View.canon_unit_zero origin]
  simp only [View.ld_unit_zero (S := S32x128x512) origin]
  obtain ⟨e0, e1, e2, e3, e4⟩ := block_index t
  funext j
  show k0_pay1 (F := Ideal) (iblk m c 0 t) j
    = shiftSq (gram (V m c main_arg0) ((((cfg0.win 1).blk t).view.emb j) 0) ((((cfg0.win 1).blk t).view.emb j) 1) ((((cfg0.win 1).blk t).view.emb j) 2))
  refine (BodyValue.stored_apply (iblk m c 0 t) j).trans (congrArg shiftSq (Finset.sum_congr rfl fun q _ => ?_))
  show input m c (((cfg0.win 0).blk t).view.emb (ix3 (j 0) (j 1) q)) * input m c (((cfg0.win 0).blk t).view.emb (ix3 (j 0) (j 2) q))
    = input m c (ix3 ((((cfg0.win 1).blk t).view.emb j) 0) ((((cfg0.win 1).blk t).view.emb j) 1) q)
      * input m c (ix3 ((((cfg0.win 1).blk t).view.emb j) 0) ((((cfg0.win 1).blk t).view.emb j) 2) q)
  -- row `c` of the block's sample `b` is row `c` of sample `32 t + b` of the array,
  have hc : ((cfg0.win 0).blk t).view.emb (ix3 (j 0) (j 1) q)
      = ix3 ((((cfg0.win 1).blk t).view.emb j) 0) ((((cfg0.win 1).blk t).view.emb j) 1) q := by
    funext a; apply Fin.ext
    match a with
    | ⟨0, _⟩ => show win0_0.index t (0 : Fin 3) * 32 + 1 * (j 0).val = win0_1.index t (0 : Fin 3) * 32 + 1 * (j 0).val; omega
    | ⟨1, _⟩ => show win0_0.index t (1 : Fin 3) * 128 + 1 * (j 1).val = win0_1.index t (1 : Fin 3) * 128 + 1 * (j 1).val; omega
    | ⟨2, _⟩ => show win0_0.index t (2 : Fin 3) * 512 + 1 * q.val = q.val; omega
  -- and the same for row `k`, which the output block carries on its last axis
  have hk : ((cfg0.win 0).blk t).view.emb (ix3 (j 0) (j 2) q)
      = ix3 ((((cfg0.win 1).blk t).view.emb j) 0) ((((cfg0.win 1).blk t).view.emb j) 2) q := by
    funext a; apply Fin.ext
    match a with
    | ⟨0, _⟩ => show win0_0.index t (0 : Fin 3) * 32 + 1 * (j 0).val = win0_1.index t (0 : Fin 3) * 32 + 1 * (j 0).val; omega
    | ⟨1, _⟩ => show win0_0.index t (1 : Fin 3) * 128 + 1 * (j 2).val = win0_1.index t (2 : Fin 3) * 128 + 1 * (j 2).val; omega
    | ⟨2, _⟩ => show win0_0.index t (2 : Fin 3) * 512 + 1 * q.val = q.val; omega
  exact congrArg₂ (fun a b : EReal => a * b) (congrArg (input m c) hc) (congrArg (input m c) hk)

/-- An index of the result array lies in point `t`'s block iff each coordinate lies in the block's range on its axis. -/
theorem mem_block (t : Fin cfg0.N) (i : S512x128x128.Idx) :
    i ∈ ((cfg0.win 1).blk t).view.set ↔ ∀ a : Fin 3, win0_1.index t a * S32x128x128.size a ≤ (i a).val ∧ (i a).val < win0_1.index t a * S32x128x128.size a + S32x128x128.size a := by
  show i ∈ ((View.whole main_v0).slice (win0_1.rect t)).set ↔ _
  rw [View.set_slice_whole, Rect.mem_set_unit]
  exact Iff.rfl

/-- Every index of the result array is in the block of the point that holds its sample. -/
theorem covered (i : S512x128x128.Idx) :
    ∃ t : Fin cfg0.N, (cfg0.win 1).flush t = true ∧ i ∈ ((cfg0.win 1).blk t).view.set := by
  have h0 : (i 0).val < 512 := (i 0).isLt
  have h1 : (i 1).val < 128 := (i 1).isLt
  have h2 : (i 2).val < 128 := (i 2).isLt
  obtain ⟨t, ht⟩ := every_block_visited ⟨(i 0).val / 32, by omega⟩
  have q0 : win0_1.index t (0 : Fin 3) = (i 0).val / 32 := congrFun ht 0
  have q1 : win0_1.index t (1 : Fin 3) = 0 := congrFun ht 1
  have q2 : win0_1.index t (2 : Fin 3) = 0 := congrFun ht 2
  refine ⟨t, flush0_1 t, ?_⟩
  rw [mem_block]
  intro a
  match a with
  | ⟨0, _⟩ => show win0_1.index t (0 : Fin 3) * 32 ≤ (i 0).val ∧ (i 0).val < win0_1.index t (0 : Fin 3) * 32 + 32; omega
  | ⟨1, _⟩ => show win0_1.index t (1 : Fin 3) * 128 ≤ (i 1).val ∧ (i 1).val < win0_1.index t (1 : Fin 3) * 128 + 128; omega
  | ⟨2, _⟩ => show win0_1.index t (2 : Fin 3) * 128 ≤ (i 2).val ∧ (i 2).val < win0_1.index t (2 : Fin 3) * 128 + 128; omega

/-- After the run the result array is the specification's array of the input as launched. -/
theorem array_eq (c : Dev nD) : (dats m 0 c).arrAt 1 cfg0.N = polyGram (m ((c : Thread nD τ).loc main_arg0)) :=
  (dats m 0 c).arrAt_eq_of_cover 1 (polyGram (V m c main_arg0)) (fun t _ => written_back m c t) covered

/-- The kernel's run: it terminates with the result array at the specification's array of the input, the input unchanged. -/
theorem run : θ_run defs (onTc (τ := τ) (main (F := Ideal))) ⟨m, fun _ => 0, ρ⟩ fun r => ∀ c : Dev nD,
      r.2.mem ((c : Thread nD τ).loc main_v0) = polyGram (m ((c : Thread nD τ).loc main_arg0))
      ∧ r.2.mem ((c : Thread nD τ).loc main_arg0) = m ((c : Thread nD τ).loc main_arg0) :=
  (θ_run defs _ _).mono (fun r h c => ⟨(h c).1.trans (array_eq m c), (h c).2⟩) (Value.run_blocks m ρ)

end Cert.KernelIdeal.ArrayValue

end
-- ==== Proof.lean ====
/- The certificate of the degree-two polynomial kernel. For 512 samples, each a 128 × 512 matrix, both
   programs compute at index `(n, c, k)` the number `(⟨row c, row k⟩ + 1)²` of sample `n`, the inner
   product a sum of 512 products. The kernel does it sixteen times on blocks of 32 samples, narrowing to
   bf16 first (the identity on extended reals) and accumulating into zero; the reference does it in one
   batched contraction. The three frames are the generated runs; nothing was rewritten by the
   idealization, so its conjunct is trivial; for the value conjunct the kernel's run ends at the
   specification's array (`ArrayValue.run`), the reference's run at its last stage, which is the same
   array (`RefValue.stage_eq_polyGram`), of inputs that agree. No step needs the entries finite. -/
import proofs.«127970_j81140522156463_1_alg».proof.Defs
import proofs.«127970_j81140522156463_1_alg».proof.Proof.Gen.Kernel
import proofs.«127970_j81140522156463_1_alg».proof.Proof.Gen.Kernel.Skeleton
import proofs.«127970_j81140522156463_1_alg».proof.Proof.Gen.Kernel.Launch
import proofs.«127970_j81140522156463_1_alg».proof.Proof.Gen.Kernel.Points
import proofs.«127970_j81140522156463_1_alg».proof.Proof.Gen.Kernel.Frame
import proofs.«127970_j81140522156463_1_alg».proof.Proof.Gen.KernelIdeal
import proofs.«127970_j81140522156463_1_alg».proof.Proof.Gen.KernelIdeal.Skeleton
import proofs.«127970_j81140522156463_1_alg».proof.Proof.Gen.KernelIdeal.Launch
import proofs.«127970_j81140522156463_1_alg».proof.Proof.Gen.KernelIdeal.Points
import proofs.«127970_j81140522156463_1_alg».proof.Proof.Gen.KernelIdeal.Frame
import proofs.«127970_j81140522156463_1_alg».proof.Proof.Gen.ReferenceIdeal
import proofs.«127970_j81140522156463_1_alg».proof.Proof.Gen.Pre_finite_inputs
import proofs.«127970_j81140522156463_1_alg».proof.Proof.Gen.KernelIdeal.Value
import proofs.«127970_j81140522156463_1_alg».proof.Proof.Gen.ReferenceIdeal.Run
import proofs.«127970_j81140522156463_1_alg».proof.Proof.Gen.ReferenceIdeal.Read
import proofs.«127970_j81140522156463_1_alg».proof.Proof.RefValue
import proofs.«127970_j81140522156463_1_alg».proof.Proof.ArrayValue
import Idealize.ShloMosaic.Adequacy
import Idealize.ShloMosaic.Init

noncomputable section

namespace Cert.Proof

open Idealize.ShloMosaic Idealize.SL.Sem Cert.Kernel

/-- The word-level kernel runs and leaves its input as it was. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the specification's array of the shared input: the kernel block by block, the
    reference in one contraction, a shift and a square. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.stage_eq_polyGram, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
